-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S1x1 : Shape := ⟨2, ![1, 1]⟩
abbrev S2048x256 : Shape := ⟨2, ![2048, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1x1, .f32⟩
  | .hbm, ⟨3, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x1, .f32⟩
  | .local _ .vmem, ⟨3, _⟩ => ⟨S1x256, .f32⟩
  | .local _ .vmem, ⟨4, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S1x256 : S256.ShapeCasts S1x256
  transposes_S1x256_p1_0_S256x1 : S1x256.Transposes [1, 0] S256x1
  broadcasts_S1x256_S256x256 : S1x256.Broadcasts S256x256
  broadcasts_S256x1_S256x256 : S256x1.Broadcasts S256x256
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256 : Shape := ⟨1, ![256]⟩
abbrev S1x256 : Shape := ⟨2, ![1, 256]⟩
abbrev S256x256 : Shape := ⟨2, ![256, 256]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S8192x256, .f32⟩
  | .hbm, ⟨9, _⟩ => ⟨S8192x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S_, .f32⟩
  | .hbm, ⟨25, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S256x256 : S_.BroadcastsInDim S256x256 (![] : Fin 0 → Fin S256x256.rank)
  reducesTo_S256x256_S_d0_1 : S256x256.ReducesTo [0, 1] S_
  dot_S8192x256_S8192x256_S256x256_0_0_1_1_n_n_wf : DotDims.WF S8192x256 S8192x256 S256x256 [0] [0] [1] [1] [] []

variable [Facts₀]

def dot_S8192x256_S8192x256_S256x256_0_0_1_1_n_n : DotDims S8192x256 S8192x256 S256x256 where
  lhsContracting := [0]
  rhsContracting := [0]
  lhsNonContracting := [1]
  rhsNonContracting := [1]
  lhsBatch := []
  rhsBatch := []
  wf := dot_S8192x256_S8192x256_S256x256_0_0_1_1_n_n_wf

class Facts : Prop extends Facts₀ where

variable [Facts]
-- ==== Proof.Pieces.lean ====
/-
  What each grid point leaves behind, as values.

  The body keeps two running totals in scratch memory: a row of 256 column sums and a 256 × 256 matrix of
  products. At the first point it clears both and then adds the block's contribution to the cleared totals; at
  every later point it adds the block's contribution to what the point before left. At the last point it also
  stores the loss computed from the two totals it has just updated. Each statement below says that what a
  point's stores leave in a buffer, read back, is the stored value with every load replaced by the contents
  the load found: the block for the input, the previous total (or the freshly cleared one) for a scratch.
-/
import proofs.«155846_j55817394979131_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Hand.Pieces

open Cert.KernelIdeal Cert.KernelIdeal.Gen

variable {F : FTy → Type} [FloatOps F]

/-- Every store of the body starts at the origin of its buffer. -/
theorem hz : (![0, 0] : Fin 2 → Nat) = fun _ => 0 := funext fun a => by fin_cases a <;> rfl

/-! ## The first point: totals cleared, then the block added -/

/-- The column sums after the first point: the block's column sums added to the zero row. -/
theorem first_sum (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : cond0_0 i) (hc1 : ¬cond0_1 i)
    (x0 : Vec F S2048x256 .f32) :
    sout0_A_0 c i a1 h1 a2 h2 a3 h3 a4 h4 hc0 hc1 x0 = k0_pay3 x0 k0_pay1 := by
  unfold sout0_A_0
  rw [View.read_writes_eq_canon _ _ _ (scover0_A_0 c i a1 h1 a2 h2 a3 h3 a4 h4 hc0 hc1 x0)]
  unfold kernelRun0_A
  dsimp only
  sl_unfold_words
  rw [View.canon_cons_unit_zero (S := S1x256) hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

/-- The products after the first point: the block's products added to the zero matrix. -/
theorem first_gram (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : cond0_0 i) (hc1 : ¬cond0_1 i)
    (x0 : Vec F S2048x256 .f32) :
    sout0_A_1 c i a1 h1 a2 h2 a3 h3 a4 h4 hc0 hc1 x0 = k0_pay4 x0 k0_pay2 := by
  unfold sout0_A_1
  rw [View.read_writes_eq_canon _ _ _ (scover0_A_1 c i a1 h1 a2 h2 a3 h3 a4 h4 hc0 hc1 x0)]
  unfold kernelRun0_A
  dsimp only
  sl_unfold_words
  rw [View.canon_cons_unit_zero (S := S256x256) hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

/-! ## A middle point: the block added to the totals found -/

theorem mid_sum (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : ¬cond0_0 i) (hc1 : ¬cond0_1 i)
    (x0 : Vec F S2048x256 .f32) (xs0 : Vec F S1x256 .f32) (xs1 : Vec F S256x256 .f32) :
    sout0_B_0 c i a1 h1 a2 h2 a3 h3 a4 h4 hc0 hc1 x0 xs0 xs1 = k0_pay3 x0 xs0 := by
  unfold sout0_B_0
  rw [View.read_writes_eq_canon _ _ _ (scover0_B_0 c i a1 h1 a2 h2 a3 h3 a4 h4 hc0 hc1 x0 xs0 xs1)]
  unfold kernelRun0_B
  dsimp only
  sl_unfold_words
  rw [View.canon_unit_zero hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

theorem mid_gram (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : ¬cond0_0 i) (hc1 : ¬cond0_1 i)
    (x0 : Vec F S2048x256 .f32) (xs0 : Vec F S1x256 .f32) (xs1 : Vec F S256x256 .f32) :
    sout0_B_1 c i a1 h1 a2 h2 a3 h3 a4 h4 hc0 hc1 x0 xs0 xs1 = k0_pay4 x0 xs1 := by
  unfold sout0_B_1
  rw [View.read_writes_eq_canon _ _ _ (scover0_B_1 c i a1 h1 a2 h2 a3 h3 a4 h4 hc0 hc1 x0 xs0 xs1)]
  unfold kernelRun0_B
  dsimp only
  sl_unfold_words
  rw [View.canon_unit_zero hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

/-! ## The last point: the block added, and the loss of the updated totals stored -/

theorem last_sum (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : ¬cond0_0 i) (hc1 : cond0_1 i)
    (x0 : Vec F S2048x256 .f32) (xs0 : Vec F S1x256 .f32) (xs1 : Vec F S256x256 .f32) :
    sout0_C_0 c i a1 h1 a2 h2 a3 h3 a4 h4 hc0 hc1 x0 xs0 xs1 = k0_pay3 x0 xs0 := by
  unfold sout0_C_0
  rw [View.read_writes_eq_canon _ _ _ (scover0_C_0 c i a1 h1 a2 h2 a3 h3 a4 h4 hc0 hc1 x0 xs0 xs1)]
  unfold kernelRun0_C
  dsimp only
  sl_unfold_words
  rw [View.canon_unit_zero hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

theorem last_gram (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : ¬cond0_0 i) (hc1 : cond0_1 i)
    (x0 : Vec F S2048x256 .f32) (xs0 : Vec F S1x256 .f32) (xs1 : Vec F S256x256 .f32) :
    sout0_C_1 c i a1 h1 a2 h2 a3 h3 a4 h4 hc0 hc1 x0 xs0 xs1 = k0_pay4 x0 xs1 := by
  unfold sout0_C_1
  rw [View.read_writes_eq_canon _ _ _ (scover0_C_1 c i a1 h1 a2 h2 a3 h3 a4 h4 hc0 hc1 x0 xs0 xs1)]
  unfold kernelRun0_C
  dsimp only
  sl_unfold_words
  rw [View.canon_unit_zero hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

/-- The loss the last point stores is computed from the totals that point has just written. -/
theorem last_loss (c : Dev nD) (i : grid0.Coords) (a1 : Memref sig .tc .vmem S2048x256 .f32) (h1 : a1.IsWhole)
    (a2 : Memref sig .tc .vmem S1x1 .f32) (h2 : a2.IsWhole) (a3 : Memref sig .tc .vmem S1x256 .f32) (h3 : a3.IsWhole)
    (a4 : Memref sig .tc .vmem S256x256 .f32) (h4 : a4.IsWhole) (hc0 : ¬cond0_0 i) (hc1 : cond0_1 i)
    (x0 : Vec F S2048x256 .f32) (xs0 : Vec F S1x256 .f32) (xs1 : Vec F S256x256 .f32) :
    out0_C_1 c i a1 h1 a2 h2 a3 h3 a4 h4 hc0 hc1 x0 xs0 xs1 = k0_pay5 (k0_pay3 x0 xs0) (k0_pay4 x0 xs1) := by
  unfold out0_C_1
  rw [View.read_writes_eq_canon _ _ _ (cover0_C_1 c i a1 h1 a2 h2 a3 h3 a4 h4 hc0 hc1 x0 xs0 xs1)]
  unfold kernelRun0_C
  dsimp only
  sl_unfold_words
  rw [View.canon_unit_zero hz]
  simp only [View.readCov_unit_zero (S := S1x256) _ hz, View.readCov_unit_zero (S := S256x256) _ hz, View.readAt_eq_ld,
    h1.read_unread, h3.read_unread, h4.read_unread, View.ld_unit_zero (S := S2048x256) hz, View.ld_unit_zero (S := S1x256) hz,
    View.ld_unit_zero (S := S256x256) hz]

end Cert.Hand.Pieces

end
-- ==== Proof.Chain.lean ====
/-
  The running totals after each grid point.

  Point 0 leaves, in the two scratch buffers, the contribution of block 0 added to the cleared totals; point
  n + 1 leaves the contribution of block n + 1 added to what point n left. So after point n the buffers hold
  the n + 1 contributions added up in point order, and the last point's stored loss is the loss of the totals
  after all four points. This is an induction on the point, for any float instance.
-/
import proofs.«155846_j55817394979131_1_alg».proof.Proof.Pieces

set_option maxRecDepth 16384

noncomputable section

open Idealize.ShloMosaic Idealize.ShloMosaic.TcCoe Idealize.SL.Sem
open Idealize.ShloMosaic.Pipeline (Dat)

namespace Cert.Hand.Chain

open Cert.KernelIdeal Cert.KernelIdeal.Gen Cert.Hand.Pieces

variable {F : FTy → Type} [FloatOps F]
variable (m : (ℓ : Loc nD τ sig) → Buf (Elt F) ℓ)

/-- Block t of the batch: rows 2048 t … 2048 t + 2047, as the body finds it at point t. -/
abbrev blk (c : Dev nD) (t : Fin cfg0.N) : Vec F S2048x256 .f32 := iblk m c 0 t

/-- The row of column sums after point n. -/
def sums (c : Dev nD) : (n : ℕ) → n < cfg0.N → Vec F S1x256 .f32
  | 0, h => k0_pay3 (blk m c ⟨0, h⟩) k0_pay1
  | n + 1, h => k0_pay3 (blk m c ⟨n + 1, h⟩) (sums c n (Nat.lt_of_succ_lt h))

/-- The matrix of products after point n. -/
def grams (c : Dev nD) : (n : ℕ) → n < cfg0.N → Vec F S256x256 .f32
  | 0, h => k0_pay4 (blk m c ⟨0, h⟩) k0_pay2
  | n + 1, h => k0_pay4 (blk m c ⟨n + 1, h⟩) (grams c n (Nat.lt_of_succ_lt h))

theorem sums_zero (c : Dev nD) (h : 0 < cfg0.N) : sums m c 0 h = k0_pay3 (blk m c ⟨0, h⟩) k0_pay1 := rfl
theorem sums_succ (c : Dev nD) (n : ℕ) (h : n + 1 < cfg0.N) :
    sums m c (n + 1) h = k0_pay3 (blk m c ⟨n + 1, h⟩) (sums m c n (Nat.lt_of_succ_lt h)) := rfl
theorem grams_zero (c : Dev nD) (h : 0 < cfg0.N) : grams m c 0 h = k0_pay4 (blk m c ⟨0, h⟩) k0_pay2 := rfl
theorem grams_succ (c : Dev nD) (n : ℕ) (h : n + 1 < cfg0.N) :
    grams m c (n + 1) h = k0_pay4 (blk m c ⟨n + 1, h⟩) (grams m c n (Nat.lt_of_succ_lt h)) := rfl

/-- What the two scratch buffers hold after point n are the running totals. -/
theorem outsAt_totals (c : Dev nD) : ∀ (n : ℕ) (h : n < cfg0.N),
    (outsAt0 m c n h).2.1 = sums m c n h ∧ (outsAt0 m c n h).2.2 = grams m c n h
  | 0, h => by
    have hA := outsAt0_A m c ⟨0, h⟩ rfl (by dsimp only; omega)
    refine ⟨?_, ?_⟩
    · show (outsAt0 m c (⟨0, h⟩ : Fin cfg0.N).val (⟨0, h⟩ : Fin cfg0.N).isLt).2.1 = _
      rw [hA]; dsimp only
      exact first_sum c (grid0.coords ⟨0, h⟩) (ms0_0 ⟨0, h⟩) (hs0_0 ⟨0, h⟩) (ms0_1 ⟨0, h⟩) (hs0_1 ⟨0, h⟩) scM0_0 (Memref.isWhole_whole _) scM0_1 (Memref.isWhole_whole _) _ _ (iblk m c 0 ⟨0, h⟩)
    · show (outsAt0 m c (⟨0, h⟩ : Fin cfg0.N).val (⟨0, h⟩ : Fin cfg0.N).isLt).2.2 = _
      rw [hA]; dsimp only
      exact first_gram c (grid0.coords ⟨0, h⟩) (ms0_0 ⟨0, h⟩) (hs0_0 ⟨0, h⟩) (ms0_1 ⟨0, h⟩) (hs0_1 ⟨0, h⟩) scM0_0 (Memref.isWhole_whole _) scM0_1 (Memref.isWhole_whole _) _ _ (iblk m c 0 ⟨0, h⟩)
  | n + 1, h => by
    have hN : cfg0.N = 4 := N_0
    have ih := outsAt_totals c n (Nat.lt_of_succ_lt h)
    have h0 : ¬(⟨n + 1, h⟩ : Fin cfg0.N).val % 4 = 0 := by dsimp only; omega
    by_cases h1 : (⟨n + 1, h⟩ : Fin cfg0.N).val % 4 = 3
    · have hC := outsAt0_C m c ⟨n + 1, h⟩ h0 h1
      refine ⟨?_, ?_⟩
      · show (outsAt0 m c (⟨n + 1, h⟩ : Fin cfg0.N).val (⟨n + 1, h⟩ : Fin cfg0.N).isLt).2.1 = _
        rw [hC]; dsimp only
        refine (last_sum c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) _ _ (iblk m c 0 ⟨n + 1, h⟩) _ _).trans ?_
        show k0_pay3 (blk m c ⟨n + 1, h⟩) (outsAt0 m c n _).2.1 = _
        rw [ih.1, sums_succ]
      · show (outsAt0 m c (⟨n + 1, h⟩ : Fin cfg0.N).val (⟨n + 1, h⟩ : Fin cfg0.N).isLt).2.2 = _
        rw [hC]; dsimp only
        refine (last_gram c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) _ _ (iblk m c 0 ⟨n + 1, h⟩) _ _).trans ?_
        show k0_pay4 (blk m c ⟨n + 1, h⟩) (outsAt0 m c n _).2.2 = _
        rw [ih.2, grams_succ]
    · have hB := outsAt0_B m c ⟨n + 1, h⟩ h0 h1
      refine ⟨?_, ?_⟩
      · show (outsAt0 m c (⟨n + 1, h⟩ : Fin cfg0.N).val (⟨n + 1, h⟩ : Fin cfg0.N).isLt).2.1 = _
        rw [hB]; dsimp only
        refine (mid_sum c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) _ _ (iblk m c 0 ⟨n + 1, h⟩) _ _).trans ?_
        show k0_pay3 (blk m c ⟨n + 1, h⟩) (outsAt0 m c n _).2.1 = _
        rw [ih.1, sums_succ]
      · show (outsAt0 m c (⟨n + 1, h⟩ : Fin cfg0.N).val (⟨n + 1, h⟩ : Fin cfg0.N).isLt).2.2 = _
        rw [hB]; dsimp only
        refine (mid_gram c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) _ _ (iblk m c 0 ⟨n + 1, h⟩) _ _).trans ?_
        show k0_pay4 (blk m c ⟨n + 1, h⟩) (outsAt0 m c n _).2.2 = _
        rw [ih.2, grams_succ]

/-- At the last point the output's buffer holds the loss of the totals after that point. -/
theorem outsAt_loss (c : Dev nD) : ∀ (n : ℕ) (h : n < cfg0.N), n % 4 = 3 →
    (outsAt0 m c n h).1 = k0_pay5 (sums m c n h) (grams m c n h)
  | 0, h, h3 => by omega
  | n + 1, h, h3 => by
    have hN : cfg0.N = 4 := N_0
    have ih := outsAt_totals m c n (Nat.lt_of_succ_lt h)
    have h0 : ¬(⟨n + 1, h⟩ : Fin cfg0.N).val % 4 = 0 := by dsimp only; omega
    have hC := outsAt0_C m c ⟨n + 1, h⟩ h0 h3
    show (outsAt0 m c (⟨n + 1, h⟩ : Fin cfg0.N).val (⟨n + 1, h⟩ : Fin cfg0.N).isLt).1 = _
    rw [hC]; dsimp only
    refine (last_loss c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) _ _ (iblk m c 0 ⟨n + 1, h⟩) _ _).trans ?_
    show k0_pay5 (k0_pay3 (blk m c ⟨n + 1, h⟩) (outsAt0 m c n _).2.1) (k0_pay4 (blk m c ⟨n + 1, h⟩) (outsAt0 m c n _).2.2) = _
    rw [ih.1, ih.2, sums_succ, grams_succ]

end Cert.Hand.Chain

end
-- ==== Proof.KernelRun.lean ====
/-
  The kernel's run, read: the result holds the loss of the totals after the last point.

  The output window is one 1 × 1 block that only the last grid point writes back, and that block is the whole
  1 × 1 array; so after the region the array holds what the last point stored, the loss of the totals after
  all four points. The one host line after the region reshapes the 1 × 1 array to a scalar. The arguments end
  as they began.
-/
import proofs.«155846_j55817394979131_1_alg».proof.Proof.Chain
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Hand.KernelRun

open Cert.KernelIdeal Cert.KernelIdeal.Gen Cert.Hand.Chain

variable {F : FTy → Type} [FloatOps F]
variable (m : (ℓ : Loc nD τ sig) → Buf (Elt F) ℓ) (ρ : Dev nD → PrngReg)

theorem lastLt : 3 < cfg0.N := by rw [show cfg0.N = 4 from N_0]; decide

/-- The 1 × 1 block the last point stores: the loss of the totals after all four points. -/
abbrev lossBlock (c : Dev nD) : Buf (Elt F) ((c : Thread nD τ).loc main_v0) :=
  k0_pay5 (sums m c 3 lastLt) (grams m c 3 lastLt)

/-- The one write-back, at the last point, writes that block: block (0, 0) of a 1 × 1 array is the array. -/
theorem flushed_eq (c : Dev nD) (t : Fin cfg0.N) (hf : (cfg0.win 1).flush t = true) :
    (dats m 0 c).flushed 1 t = ((cfg0.win 1).blk t).view.read (Elt F) (lossBlock m c) := by
  have hN : cfg0.N = 4 := N_0
  have h3 : t.val = 3 := by have := (flush0_1 t).mp hf; have := t.isLt; omega
  obtain rfl : t = t0_3 := Fin.ext h3
  show (cfg0.win 1).cut (grid0.coords t0_3) ((dats m 0 c).after 1 t0_3) = _
  rw [after0_1, outsAt_loss m c t0_3.val t0_3.isLt rfl]
  have hz' : (fun a => win0_1.index t0_3 a * main_v0.ty.shape.size a) = fun _ => 0 := funext fun a => by fin_cases a <;> decide
  exact (Memref.read_access_unit_zero (Elt F) main_v0 hz' (fun a => by rw [congrFun hz' a]; simp) (lossBlock m c)).symm

/-- So the 1 × 1 array ends holding it: the last point's block covers the array. -/
theorem final_loss (c : Dev nD) : (dats m 0 c).arrAt 1 cfg0.N = lossBlock m c :=
  (dats m 0 c).arrAt_eq_of_cover 1 (lossBlock m c) (flushed_eq m c) fun i =>
    ⟨t0_3, (flush0_1 t0_3).mpr rfl, by
      show i ∈ ((View.whole main_v0).slice (win0_1.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_3 0 * win0_1.size 0 ≤ (i 0 : Nat) ∧ (i 0 : Nat) < win0_1.index t0_3 0 * win0_1.size 0 + win0_1.xsize (grid0.coords t0_3) 0
                  rw [show win0_1.index t0_3 0 * win0_1.size 0 = 0 from by decide +kernel, show win0_1.xsize (grid0.coords t0_3) 0 = 1 from by decide +kernel]; omega
      | ⟨1, _⟩ => show win0_1.index t0_3 1 * win0_1.size 1 ≤ (i 1 : Nat) ∧ (i 1 : Nat) < win0_1.index t0_3 1 * win0_1.size 1 + win0_1.xsize (grid0.coords t0_3) 1
                  rw [show win0_1.index t0_3 1 * win0_1.size 1 = 0 from by decide +kernel, show win0_1.xsize (grid0.coords t0_3) 1 = 1 from by decide +kernel]; omega⟩

/-- The host line after the region: the scalar result is the 1 × 1 array reshaped. -/
theorem tail_scalar (c : Dev nD) :
    Pipeline.afterTail₀ cfgs (dats m) 0 (V0 m) [hostOps1] c main_v1 = shapeCast S_ (lossBlock m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = lossBlock m c :=
    (Pipeline.withArrays_arr spec0 launch0.win.arr_inj c _ _ 1).trans (final_loss m c)
  rw [e]
  rfl

/-- The run, read: the scalar result is the reshaped loss block, and both arguments end as they began. -/
theorem run : θ_run defs (onTc (τ := τ) (main (F := F))) ⟨m, fun _ => 0, ρ⟩ fun r => ∀ c : Dev nD,
      r.2.mem ((c : Thread nD τ).loc main_v1) = shapeCast S_ (lossBlock m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 (by decide) (by decide))).trans (tail_scalar m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Hand.KernelRun

end
-- ==== Proof.LibStats.lean ====
/-
  Pure mathematics on the extended reals, used from both programs' sides.

  (1) "Is a real": an extended real that is neither infinity, and the operations of one layer
      that keep a value real: sum, difference, product, quotient by a nonzero real, maximum,
      the reciprocal square root of a positive real, and finite sums.
  (2) The batch statistics over a finite index type of N elements: for real entries the
      one-pass variance  max (Σx²/N − (Σx/N)², 0)  is the two-pass variance  Σ(x − mean)²/N,
      which is a nonnegative real; adding a positive real to it gives a positive real.
  (3) Re-indexing a sum over Fin (a·b) as a double sum over Fin a × Fin b, the pair (t, r)
      standing for the index b·t + r.
-/
import Idealize.ShloMosaic.PureOps.Ideal
import Idealize.ShloMosaic.PureOps.Ideal.Laws
import Mathlib.Data.EReal.Inv
import Mathlib.Data.Fintype.BigOperators
import Mathlib.Logic.Equiv.Fin.Basic

noncomputable section

namespace Cert.Hand.LibStats

open Idealize.ShloMosaic
open scoped BigOperators

/-! ## Real values among the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩
theorem IsReal.ne_bot {x : EReal} (hx : IsReal x) : x ≠ ⊥ := (isReal_iff.mp hx).1
theorem IsReal.ne_top {x : EReal} (hx : IsReal x) : x ≠ ⊤ := (isReal_iff.mp hx).2

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.max_zero {x : EReal} (hx : IsReal x) : IsReal (Max.max x 0) := hx.max isReal_zero

/-- The quotient of two reals, the divisor not zero, is the real quotient. -/
theorem div_coe_coe (a c : ℝ) (hc : c ≠ 0) : Ideal.div (a : EReal) (c : EReal) = ((a / c : ℝ) : EReal) := by
  rw [Ideal.div_coe hc, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 EReal.coe_zero
  exact ⟨a / b, div_coe_coe a b hb⟩
theorem IsReal.div_coe {x : EReal} (hx : IsReal x) {c : ℝ} (hc : c ≠ 0) : IsReal (Ideal.div x (c : EReal)) := by
  obtain ⟨a, rfl⟩ := hx
  exact ⟨a / c, div_coe_coe a c hc⟩

/-- The reciprocal square root of a positive real r is the real (√r)⁻¹, which is positive. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem rsqrt_pos_real {r : ℝ} (hr : 0 < r) : ∃ s : ℝ, 0 < s ∧ Ideal.rsqrt (r : EReal) = (s : EReal) :=
  ⟨(Real.sqrt r)⁻¹, inv_pos.mpr (Real.sqrt_pos.mpr hr), rsqrt_coe_pos hr⟩
theorem IsReal.rsqrt_pos {x : EReal} (hx : IsReal x) (h : 0 < x) : IsReal (Ideal.rsqrt x) := by
  obtain ⟨r, rfl⟩ := hx
  exact ⟨_, rsqrt_coe_pos (EReal.coe_pos.mp h)⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]
theorem IsReal.sum {ι : Type*} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))
theorem IsReal.sum_univ {ι : Type*} [Fintype ι] (f : ι → EReal) (h : ∀ i, IsReal (f i)) : IsReal (∑ i, f i) :=
  IsReal.sum _ f fun i _ => h i

/-! The same closure facts over the float operations read at the exact instance. -/

theorem IsReal.addf {φ : FTy} {x y : Ideal φ} (hx : IsReal x) (hy : IsReal y) : IsReal (FloatOps.addf x y) := hx.add hy
theorem IsReal.subf {φ : FTy} {x y : Ideal φ} (hx : IsReal x) (hy : IsReal y) : IsReal (FloatOps.subf x y) := hx.sub hy
theorem IsReal.mulf {φ : FTy} {x y : Ideal φ} (hx : IsReal x) (hy : IsReal y) : IsReal (FloatOps.mulf x y) := hx.mul hy
theorem IsReal.maximumf {φ : FTy} {x y : Ideal φ} (hx : IsReal x) (hy : IsReal y) : IsReal (FloatOps.maximumf x y) := hx.max hy
theorem IsReal.divf {φ : FTy} {x y : Ideal φ} (hx : IsReal x) (hy : IsReal y) (h0 : y ≠ 0) : IsReal (FloatOps.divf x y) := hx.div hy h0
theorem IsReal.hostDivf {φ : FTy} {x y : Ideal φ} (hx : IsReal x) (hy : IsReal y) (h0 : y ≠ 0) : IsReal (FloatOps.hostDivf x y) := hx.div hy h0
theorem IsReal.rsqrtf {φ : FTy} {x : Ideal φ} (hx : IsReal x) (h : (0 : EReal) < x) : IsReal (FloatOps.rsqrt x) := hx.rsqrt_pos h

/-! ## The batch statistics -/

section Stats

variable {ι : Type*} [Fintype ι]

/-- Over the reals: with N the number of indices, the mean of the squares less the square of the mean is
    the mean of the squared deviations. Expanding the square, the cross term is 2 · mean · Σx = 2 · N · mean²
    and the constant term sums to N · mean². -/
theorem real_batch_var (N : ℝ) (hN : (Fintype.card ι : ℝ) = N) (hN0 : N ≠ 0) (r : ι → ℝ) :
    (∑ i, r i * r i) / N - (∑ i, r i) / N * ((∑ i, r i) / N)
      = (∑ i, (r i - (∑ i, r i) / N) * (r i - (∑ i, r i) / N)) / N := by
  have h1 : ∀ m : ℝ, ∑ i, (r i - m) * (r i - m) = (∑ i, r i * r i) - 2 * m * (∑ i, r i) + N * (m * m) := by
    intro m
    have h2 : ∀ i, (r i - m) * (r i - m) = r i * r i - 2 * m * r i + m * m := fun i => by ring
    simp only [h2]
    rw [Finset.sum_add_distrib, Finset.sum_sub_distrib, ← Finset.mul_sum, Finset.sum_const, Finset.card_univ,
      nsmul_eq_mul, hN]
  rw [h1]
  field_simp
  ring

/-- The number of indices, not zero, is positive. -/
theorem card_pos_of_ne (N : ℝ) (hN : (Fintype.card ι : ℝ) = N) (hN0 : N ≠ 0) : 0 < N :=
  lt_of_le_of_ne (hN ▸ Nat.cast_nonneg _) hN0.symm

/-- Over the reals the mean of the squared deviations is not negative. -/
theorem real_var_nonneg (N : ℝ) (hN : (Fintype.card ι : ℝ) = N) (hN0 : N ≠ 0) (r : ι → ℝ) (m : ℝ) :
    0 ≤ (∑ i, (r i - m) * (r i - m)) / N :=
  div_nonneg (Finset.sum_nonneg fun i _ => mul_self_nonneg _) (card_pos_of_ne N hN hN0).le

/-- The mean of real entries, as the real quotient. -/
theorem mean_coe (Nr : ℝ) (hN0 : Nr ≠ 0) (r : ι → ℝ) :
    Ideal.div (∑ i, (r i : EReal)) (Nr : EReal) = (((∑ i, r i) / Nr : ℝ) : EReal) := by
  rw [← coe_sum, div_coe_coe _ _ hN0]

/-- The mean of the squared deviations of real entries, as a real. -/
theorem var2_coe (Nr : ℝ) (hN0 : Nr ≠ 0) (r : ι → ℝ) :
    Ideal.div (∑ i, ((r i : EReal) - Ideal.div (∑ i, (r i : EReal)) (Nr : EReal))
        * ((r i : EReal) - Ideal.div (∑ i, (r i : EReal)) (Nr : EReal))) (Nr : EReal)
      = (((∑ i, (r i - (∑ i, r i) / Nr) * (r i - (∑ i, r i) / Nr)) / Nr : ℝ) : EReal) := by
  rw [mean_coe Nr hN0 r]
  simp only [← EReal.coe_sub, ← EReal.coe_mul]
  rw [← coe_sum, div_coe_coe _ _ hN0]

/-- The mean of real entries is real. -/
theorem isReal_mean (Nr : ℝ) (hN0 : Nr ≠ 0) (x : ι → EReal) (hx : ∀ i, IsReal (x i)) :
    IsReal (Ideal.div (∑ i, x i) (Nr : EReal)) :=
  (IsReal.sum_univ x hx).div_coe hN0

/-- One pass against two: for real entries over an index type of Nr elements, the mean of the squares
    less the square of the mean, cut off below at zero, is the mean of the squared deviations. -/
theorem batch_var (Nr : ℝ) (hN : (Fintype.card ι : ℝ) = Nr) (hN0 : Nr ≠ 0) (x : ι → EReal) (hx : ∀ i, IsReal (x i)) :
    max (Ideal.div (∑ i, x i * x i) (Nr : EReal)
          - Ideal.div (∑ i, x i) (Nr : EReal) * Ideal.div (∑ i, x i) (Nr : EReal)) 0
      = Ideal.div (∑ i, (x i - Ideal.div (∑ i, x i) (Nr : EReal)) * (x i - Ideal.div (∑ i, x i) (Nr : EReal))) (Nr : EReal) := by
  choose r hr using hx
  simp only [hr]
  have hsq : Ideal.div (∑ i, (r i : EReal) * (r i : EReal)) (Nr : EReal) = (((∑ i, r i * r i) / Nr : ℝ) : EReal) := by
    simp only [← EReal.coe_mul]
    rw [← coe_sum, div_coe_coe _ _ hN0]
  rw [var2_coe Nr hN0 r, mean_coe Nr hN0 r, hsq, ← EReal.coe_mul, ← EReal.coe_sub, real_batch_var Nr hN hN0 r]
  exact max_eq_left (EReal.coe_nonneg.mpr (real_var_nonneg Nr hN hN0 r _))

/-- The mean of the squared deviations is a nonnegative real. -/
theorem batch_var_nonneg (Nr : ℝ) (hN : (Fintype.card ι : ℝ) = Nr) (hN0 : Nr ≠ 0) (x : ι → EReal) (hx : ∀ i, IsReal (x i)) :
    ∃ v : ℝ, 0 ≤ v ∧
      Ideal.div (∑ i, (x i - Ideal.div (∑ i, x i) (Nr : EReal)) * (x i - Ideal.div (∑ i, x i) (Nr : EReal))) (Nr : EReal) = (v : EReal) := by
  choose r hr using hx
  simp only [hr]
  exact ⟨_, real_var_nonneg Nr hN hN0 r _, var2_coe Nr hN0 r⟩

/-- … and with a positive real added it is a positive real. -/
theorem batch_var_add_pos (Nr : ℝ) (hN : (Fintype.card ι : ℝ) = Nr) (hN0 : Nr ≠ 0) (x : ι → EReal) (hx : ∀ i, IsReal (x i))
    (e : ℝ) (he : 0 < e) :
    ∃ v : ℝ, 0 < v ∧
      Ideal.div (∑ i, (x i - Ideal.div (∑ i, x i) (Nr : EReal)) * (x i - Ideal.div (∑ i, x i) (Nr : EReal))) (Nr : EReal) + (e : EReal)
        = (v : EReal) := by
  obtain ⟨v, hv, h⟩ := batch_var_nonneg Nr hN hN0 x hx
  exact ⟨v + e, add_pos_of_nonneg_of_pos hv he, by rw [h, EReal.coe_add]⟩

/-- … so its reciprocal square root is a positive real. -/
theorem batch_rsqrt_real (Nr : ℝ) (hN : (Fintype.card ι : ℝ) = Nr) (hN0 : Nr ≠ 0) (x : ι → EReal) (hx : ∀ i, IsReal (x i))
    (e : ℝ) (he : 0 < e) :
    ∃ s : ℝ, 0 < s ∧
      Ideal.rsqrt (Ideal.div (∑ i, (x i - Ideal.div (∑ i, x i) (Nr : EReal)) * (x i - Ideal.div (∑ i, x i) (Nr : EReal))) (Nr : EReal)
          + (e : EReal)) = (s : EReal) := by
  obtain ⟨v, hv, h⟩ := batch_var_add_pos Nr hN hN0 x hx e he
  rw [h]
  exact rsqrt_pos_real hv

end Stats

/-! ## Sums over Fin (a * b) as double sums -/

section Reindex

/-- The pair (t, r) stands for the index b * t + r of Fin n, n = a * b. -/
def finProdEquiv (a b n : ℕ) (h : a * b = n) : Fin a × Fin b ≃ Fin n := finProdFinEquiv.trans (finCongr h)

theorem finProdEquiv_val (a b n : ℕ) (h : a * b = n) (t : Fin a) (r : Fin b) :
    (finProdEquiv a b n h (t, r)).val = b * t.val + r.val := by
  show r.val + b * t.val = b * t.val + r.val
  exact Nat.add_comm _ _
theorem finProdEquiv_symm_fst_val (a b n : ℕ) (h : a * b = n) (k : Fin n) :
    ((finProdEquiv a b n h).symm k).1.val = k.val / b := rfl
theorem finProdEquiv_symm_snd_val (a b n : ℕ) (h : a * b = n) (k : Fin n) :
    ((finProdEquiv a b n h).symm k).2.val = k.val % b := rfl

variable {M : Type*} [AddCommMonoid M]

theorem sum_finProd (a b n : ℕ) (h : a * b = n) (f : Fin n → M) :
    ∑ p : Fin a × Fin b, f (finProdEquiv a b n h p) = ∑ k : Fin n, f k :=
  Equiv.sum_comp (finProdEquiv a b n h) f
theorem sum_sum_finProd (a b n : ℕ) (h : a * b = n) (f : Fin n → M) :
    ∑ t : Fin a, ∑ r : Fin b, f (finProdEquiv a b n h (t, r)) = ∑ k : Fin n, f k := by
  rw [← sum_finProd a b n h f, Fintype.sum_prod_type]
/-- The same for a sum restricted by a predicate. -/
theorem sum_filter_finProd (a b n : ℕ) (h : a * b = n) (P : Fin n → Prop) [DecidablePred P] (f : Fin n → M) :
    ∑ t : Fin a, ∑ r ∈ Finset.univ.filter (fun r : Fin b => P (finProdEquiv a b n h (t, r))), f (finProdEquiv a b n h (t, r))
      = ∑ k ∈ Finset.univ.filter P, f k := by
  rw [Finset.sum_filter, ← sum_sum_finProd a b n h fun k => if P k then f k else 0]
  exact Finset.sum_congr rfl fun t _ => Finset.sum_filter _ _

/-- Ten blocks of 5000 rows: the pair (t, r) is row 5000 * t + r of 50000. -/
abbrev rowsEquiv : Fin 10 × Fin 5000 ≃ Fin 50000 := finProdEquiv 10 5000 50000 (by norm_num)
/-- Eight chunks of 200000 edges: the pair (c, e) is edge 200000 * c + e of 1600000. -/
abbrev edgesEquiv : Fin 8 × Fin 200000 ≃ Fin 1600000 := finProdEquiv 8 200000 1600000 (by norm_num)

theorem rowsEquiv_val (t : Fin 10) (r : Fin 5000) : (rowsEquiv (t, r)).val = 5000 * t.val + r.val :=
  finProdEquiv_val 10 5000 50000 _ t r
theorem edgesEquiv_val (c : Fin 8) (e : Fin 200000) : (edgesEquiv (c, e)).val = 200000 * c.val + e.val :=
  finProdEquiv_val 8 200000 1600000 _ c e
theorem sum_rows (f : Fin 50000 → M) : ∑ t : Fin 10, ∑ r : Fin 5000, f (rowsEquiv (t, r)) = ∑ k : Fin 50000, f k :=
  sum_sum_finProd 10 5000 50000 _ f
theorem sum_edges (f : Fin 1600000 → M) : ∑ c : Fin 8, ∑ e : Fin 200000, f (edgesEquiv (c, e)) = ∑ k : Fin 1600000, f k :=
  sum_sum_finProd 8 200000 1600000 _ f

end Reindex

end Cert.Hand.LibStats

end
-- ==== Proof.Spec.lean ====
/-
  The loss both programs compute, written once over the extended reals.

  x is a batch of 8192 rows and 256 features. Its column sums s_a = Σ_b x(b,a) and its Gram matrix
  G(p,q) = Σ_b x(b,p) · x(b,q) give the covariance in one pass, G(p,q)/N − s_q · s_p / N², N = 8192;
  centring first gives it in two passes, Σ_b (x(b,p) − s_p/N) · (x(b,q) − s_q/N) / N. Either way the identity
  matrix is taken off and the result is the square root of the sum of the squared entries (the Frobenius
  norm). The two divisors are the float words of 8192 = 2^13 and 8192² = 2^26, both exact.
-/
import proofs.«155846_j55817394979131_1_alg».proof.Proof.LibStats
import Idealize.ShloMosaic.PureOps.Ideal
import Idealize.ShloMosaic.Lib.ValueIdx

noncomputable section

open scoped BigOperators

namespace Cert.Hand.Cov

open Idealize.ShloMosaic Idealize.ShloMosaic.ValueIdx

/-- A batch: 8192 rows of 256 features, as extended reals. -/
abbrev Batch : Type := (⟨2, ![8192, 256]⟩ : Shape).Idx → EReal

/-- The number of rows, as the float word both programs divide by. -/
def nB : EReal := Ideal.ofBits .f32 0x46000000#32
/-- Its square, as the float word the one-pass form divides by. -/
def nB2 : EReal := Ideal.ofBits .f32 0x4C800000#32

/-- The sum of feature a over the rows. -/
def colSum (x : Batch) (a : Fin 256) : EReal := ∑ b : Fin 8192, x (ix2 b a)
/-- The Gram matrix: the sum over the rows of feature p times feature q. -/
def gram (x : Batch) (p q : Fin 256) : EReal := ∑ b : Fin 8192, x (ix2 b p) * x (ix2 b q)
/-- The identity matrix. -/
def eye (p q : Fin 256) : EReal := if p = q then 1 else 0

/-- An entry of (covariance − identity) from column sums s and a Gram matrix G, in one pass. -/
def entry (s : Fin 256 → EReal) (G : Fin 256 → Fin 256 → EReal) (p q : Fin 256) : EReal :=
  Ideal.div (G p q) nB - Ideal.div (s q * s p) nB2 - eye p q
/-- The one-pass entries of a batch. -/
def onePass (x : Batch) : Fin 256 → Fin 256 → EReal := entry (colSum x) (gram x)

/-- The mean of feature a. -/
def mean (x : Batch) (a : Fin 256) : EReal := Ideal.div (colSum x a) nB
/-- The two-pass entries: centre, multiply, sum over the rows, divide, take the identity off. -/
def twoPass (x : Batch) (p q : Fin 256) : EReal :=
  Ideal.div (∑ b : Fin 8192, (x (ix2 b p) - mean x p) * (x (ix2 b q) - mean x q)) nB - eye p q

/-- The Frobenius norm of a 256 × 256 matrix of entries. -/
def frob (e : Fin 256 → Fin 256 → EReal) : EReal :=
  Ideal.sqrt (∑ j : (⟨2, ![256, 256]⟩ : Shape).Idx, e (j 0) (j 1) * e (j 0) (j 1))

end Cert.Hand.Cov

end
-- ==== Proof.Payload.lean ====
/-
  The five values the kernel body stores, each read at an index over the extended reals.

  The first grid step clears two accumulators: a row of 256 column sums and a 256 × 256 Gram matrix. Every step
  adds its block's share to them: for a block x of 2048 rows, Σ_r x(r, a) to the row at a and Σ_r x(r, p) · x(r, q)
  to the matrix at (p, q). The last step turns the accumulated sums s and G into the loss, the square root of
  Σ_{p,q} (G(p, q)/N − s_q · s_p/N² − δ_{pq})², with N = 8192 and δ the identity matrix.
-/
import proofs.«155846_j55817394979131_1_alg».proof.Proof.Gen.KernelIdeal.Skeleton
import proofs.«155846_j55817394979131_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.Payload

open Cert.KernelIdeal Cert.KernelIdeal.Gen Cert.Hand.Cov Idealize.ShloMosaic Idealize.ShloMosaic.ValueIdx

/-- The cleared row of column sums is zero everywhere. -/
theorem zeroRow_apply (u : Fin 1) (a : Fin 256) : k0_pay1 (F := Ideal) (ix2 u a) = 0 := by
  unfold k0_pay1
  rw [shapeCast_self]
  exact Ideal.ofBits_zero_f32

/-- The cleared Gram matrix is zero everywhere. -/
theorem zeroMat_apply (p q : Fin 256) : k0_pay2 (F := Ideal) (ix2 p q) = 0 := by
  unfold k0_pay2
  rw [shapeCast_self]
  exact Ideal.ofBits_zero_f32

/-- The sum over the rows (axis 0) of a 2048 × 256 block, read at feature a. -/
theorem rowSum_apply (v3 : FVec Ideal S2048x256 .f32) (a : Fin 256) :
    multiReduction (F := Ideal) .add [0] S256 v3 0x00000000#32 reduces_S2048x256_S256 (.inl rfl) rfl (ix1 a)
      = ∑ r : Fin 2048, v3 (ix2 r a) := by
  refine (Ideal.multiReduction_add_single v3 _ reduces_S2048x256_S256 (.inl rfl) rfl (ix1 a)).trans ?_
  refine Finset.sum_congr rfl fun r _ => congrArg v3 ?_
  funext d
  match d with
  | ⟨0, _⟩ => rfl
  | ⟨1, _⟩ => rfl

/-- A step adds, at feature a, the sum of its block's column a to the accumulated row. -/
theorem addColSum_apply (v3 : Vec Ideal S2048x256 .f32) (v4 : Vec Ideal S1x256 .f32) (u : Fin 1) (a : Fin 256) :
    k0_pay3 v3 v4 (ix2 u a) = v4 (ix2 u a) + ∑ r : Fin 2048, v3 (ix2 r a) := by
  unfold k0_pay3
  rw [shapeCast_self, addf_apply, shapeCast_a_1a_apply, rowSum_apply]

/-! The product of the block's transpose with the block: the contraction runs over axis 0 of both operands,
    the result's row is the left operand's column and the result's column the right operand's column. -/

theorem lhs_gram_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem lhs_gram_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem rhs_gram_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem rhs_gram_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl

/-- The block's Gram matrix at (p, q): the sum over the rows of feature p times feature q. -/
theorem gramBlock_apply (v3 : FVec Ideal S2048x256 .f32) (p q : Fin 256) :
    matmul dot_S2048x256_S2048x256_S256x256_0_0_1_1_n_n (some .fp32) v3 v3 (constant (F := Ideal) S256x256 .f32 0x00000000#32) (ix2 p q)
      = ∑ r : Fin 2048, v3 (ix2 r p) * v3 (ix2 r q) := by
  simp only [matmul]
  rw [Ideal.matmul_constant_zero_apply, ← Equiv.sum_comp (ValueIdx.contrEquiv1 dot_S2048x256_S2048x256_S256x256_0_0_1_1_n_n 2048 rfl rfl).symm]
  refine Finset.sum_congr rfl fun k _ => ?_
  have hk := ValueIdx.contrEquiv1_symm_val dot_S2048x256_S2048x256_S256x256_0_0_1_1_n_n 2048 rfl rfl k
  have el : dot_S2048x256_S2048x256_S256x256_0_0_1_1_n_n.lhsIdx (ix2 p q) ((ValueIdx.contrEquiv1 dot_S2048x256_S2048x256_S256x256_0_0_1_1_n_n 2048 rfl rfl).symm k) = ix2 k p := funext fun a => Fin.ext (by
    match a with
    | ⟨0, _⟩ => exact (lhs_gram_0 _ _).trans hk
    | ⟨1, _⟩ => exact lhs_gram_1 _ _)
  have er : dot_S2048x256_S2048x256_S256x256_0_0_1_1_n_n.rhsIdx (ix2 p q) ((ValueIdx.contrEquiv1 dot_S2048x256_S2048x256_S256x256_0_0_1_1_n_n 2048 rfl rfl).symm k) = ix2 k q := funext fun a => Fin.ext (by
    match a with
    | ⟨0, _⟩ => exact (rhs_gram_0 _ _).trans hk
    | ⟨1, _⟩ => exact rhs_gram_1 _ _)
  rw [el, er]

/-- A step adds, at (p, q), its block's Gram entry to the accumulated matrix. -/
theorem addGram_apply (v3 : Vec Ideal S2048x256 .f32) (v11 : Vec Ideal S256x256 .f32) (p q : Fin 256) :
    k0_pay4 v3 v11 (ix2 p q) = v11 (ix2 p q) + ∑ r : Fin 2048, v3 (ix2 r p) * v3 (ix2 r q) := by
  unfold k0_pay4
  rw [shapeCast_self, addf_apply, gramBlock_apply]

/-! The loss: the square root of the sum of the squared entries of (covariance − identity). -/

/-- A [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 0/1 matrix of "row index equals column index", converted to a float, is the identity matrix. -/
theorem eye_apply (p q : Fin 256) :
    FloatOps.sitofp (F := Ideal) .f32 ((IntOp.cmpi .eq (BitVec.ofNat 32 p.val) (BitVec.ofNat 32 q.val)).setWidth 32)
      = eye p q := by
  show (((((IntOp.cmpi .eq (BitVec.ofNat 32 p.val) (BitVec.ofNat 32 q.val)).setWidth 32).toInt : ℝ)) : EReal) = eye p q
  unfold eye IntOp.cmpi
  by_cases h : p = q
  · subst h
    rw [if_pos rfl]
    simp
  · rw [if_neg h]
    have hne : ¬ (BitVec.ofNat 32 p.val = BitVec.ofNat 32 q.val) := by
      intro e
      apply h; apply Fin.ext
      have := congrArg BitVec.toNat e
      simp only [BitVec.toNat_ofNat] at this
      have := p.isLt; have := q.isLt
      omega
    have hb : (BitVec.ofNat 32 p.val == BitVec.ofNat 32 q.val) = false := beq_eq_false_iff_ne.mpr hne
    rw [hb]
    simp

/-- The square root of the total of a 256 × 256 matrix, through the cast to [1, 256, 256], the sum over the two
    matrix axes, and the read of the one element left. -/
theorem sqrtTotal_apply (w : FVec Ideal S256x256 .f32) (y : S1x1.Idx) :
    sqrt (broadcast S1x1 (extractAt ![0, 0, 0] (shapeCast S1x1x1 (multiReduction (F := Ideal) .add [1, 2] S1
        (shapeCast S1x256x256 w shapeCasts_S256x256_S1x256x256) 0x00000000#32 reduces_S1x256x256_S1 (.inl rfl) rfl)
        shapeCasts_S1_S1x1x1) inpos_S1x1x1_p0_0_0)) y
      = Ideal.sqrt (∑ j : S256x256.Idx, w j) := by
  show FloatOps.sqrt (multiReduction (F := Ideal) .add [1, 2] S1 (shapeCast S1x256x256 w shapeCasts_S256x256_S1x256x256)
    0x00000000#32 reduces_S1x256x256_S1 (.inl rfl) rfl _) = _
  refine congrArg Ideal.sqrt ((Ideal.multiReduction_add_total (shapeCast S1x256x256 w shapeCasts_S256x256_S1x256x256) _
    reduces_S1x256x256_S1 (fun b => by match b with | ⟨0, _⟩ => rfl) (.inl rfl) rfl _).trans ?_)
  exact Equiv.sum_comp (Shape.reshapeEquiv shapeCasts_S256x256_S1x256x256) w

/-- The last step's value: the Frobenius norm of the one-pass entries made from the accumulated sums. The row of sums is
    read along the columns (s_q) and, transposed, along the rows (s_p); the two divisors are the words of N and N². -/
theorem loss_apply (v20 : Vec Ideal S1x256 .f32) (v25 : Vec Ideal S256x256 .f32) (y : S1x1.Idx) :
    k0_pay5 v20 v25 y = frob (entry (fun a => v20 (ix2 (0 : Fin 1) a)) (fun p q => v25 (ix2 p q))) := by
  unfold k0_pay5
  refine (sqrtTotal_apply _ y).trans ?_
  unfold frob
  refine congrArg Ideal.sqrt (Finset.sum_congr rfl fun j _ => ?_)
  obtain ⟨p, q, rfl⟩ : ∃ (p : Fin 256) (q : Fin 256), j = ix2 p q := ⟨j 0, j 1, eq_ix2 j⟩
  rw [mulf_apply]
  show (fun x : EReal => x * x) _ = (fun x : EReal => x * x) (entry _ _ p q)
  refine congrArg (fun x : EReal => x * x) ?_
  unfold entry
  rw [subf_apply, subf_apply, divf_apply, divf_apply, mulf_apply, broadcast_apply, broadcast_apply, sitofp_apply, extui_apply,
    broadcastTo_1b_ab_apply, broadcastTo_a1_ab_apply, transpose_ix2_apply]
  show Ideal.div (v25 (ix2 p q)) nB - Ideal.div (v20 (ix2 0 q) * v20 (ix2 0 p)) nB2
      - FloatOps.sitofp (F := Ideal) .f32 ((IntOp.cmpi .eq (iota .tc S256x256 32 [0] iota_S256x256_d0_w32 (ix2 p q))
          (iota .tc S256x256 32 [1] iota_S256x256_d1_w32 (ix2 p q))).setWidth 32)
    = Ideal.div (v25 (ix2 p q)) nB - Ideal.div (v20 (ix2 0 q) * v20 (ix2 0 p)) nB2 - eye p q
  rw [iota_single_apply, iota_single_apply]
  exact congrArg (_ - ·) (eye_apply p q)

end Cert.Hand.Payload

end
-- ==== Proof.Totals.lean ====
/-
  After the last grid point the two totals are the batch's column sums and its Gram matrix.

  Point t adds, to each total, the sum over the 2048 rows of block t; row r of block t is row 2048 t + r of
  the batch. Adding the blocks up in point order, after point n the totals are the sums over the first
  2048 (n + 1) rows, and after the fourth point over all 8192. Rows are counted by a natural number here (a
  row past the last counts as zero), so that a sum over the first k rows is a sum over a range and two
  consecutive ranges concatenate.
-/
import proofs.«155846_j55817394979131_1_alg».proof.Proof.KernelRun
import proofs.«155846_j55817394979131_1_alg».proof.Proof.Payload
import Mathlib.Algebra.BigOperators.Intervals
import Mathlib.Algebra.BigOperators.Fin

set_option maxRecDepth 16384

noncomputable section

open scoped BigOperators
open Idealize.ShloMosaic Idealize.ShloMosaic.TcCoe Idealize.SL.Sem Idealize.ShloMosaic.ValueIdx

namespace Cert.Hand.Totals

open Cert.KernelIdeal Cert.KernelIdeal.Gen Cert.Hand.Chain Cert.Hand.KernelRun Cert.Hand.Payload Cert.Hand.Cov

variable (m : (ℓ : Loc nD τ sig) → Buf (Elt Ideal) ℓ)

/-- The batch as the kernel is launched with it. -/
abbrev batch (c : Dev nD) : Batch := m ((c : Thread nD τ).loc main_arg0)

/-- Feature a of row k of a batch; zero past the last row. -/
def rowAt (x : Batch) (k : ℕ) (a : Fin 256) : EReal := if h : k < 8192 then x (ix2 ⟨k, h⟩ a) else 0

theorem rowAt_lt (x : Batch) (b : Fin 8192) (a : Fin 256) : rowAt x b.val a = x (ix2 b a) := by
  unfold rowAt; rw [dif_pos b.isLt]

/-- The input window's block index at point t is (t, 0): decided over the four points. -/
theorem index_facts : ∀ t : Fin cfg0.N, win0_0.index t 0 = t.val ∧ win0_0.index t 1 = 0 :=
  (by decide +kernel : ∀ t : Fin grid0.N, win0_0.index t 0 = t.val ∧ win0_0.index t 1 = 0)

/-- Row r of block t is row 2048 t + r of the batch. -/
theorem blk_row (c : Dev nD) (t : Fin cfg0.N) (r : Fin 2048) (a : Fin 256) :
    blk m c t (ix2 r a) = rowAt (batch m c) (2048 * t.val + r.val) a := by
  have hN : cfg0.N = 4 := N_0
  have hb : 2048 * t.val + r.val < 8192 := by have := t.isLt; have := r.isLt; omega
  have hi := index_facts t
  unfold rowAt
  rw [dif_pos hb]
  show iblk m c 0 t (ix2 r a) = _
  unfold iblk
  rw [View.read_apply]
  show V m c main_arg0 _ = m ((c : Thread nD τ).loc main_arg0) _
  unfold V
  congr 1
  funext ax
  apply Fin.ext
  match ax with
  | ⟨0, _⟩ => show win0_0.index t 0 * 2048 + 1 * r.val = 2048 * t.val + r.val; rw [hi.1]; omega
  | ⟨1, _⟩ => show win0_0.index t 1 * 256 + 1 * a.val = a.val; rw [hi.2]; omega

/-- A block's column sum, as a sum over a range of rows of the batch. -/
theorem blk_colSum (c : Dev nD) (t : Fin cfg0.N) (a : Fin 256) :
    ∑ r : Fin 2048, blk m c t (ix2 r a) = ∑ r ∈ Finset.range 2048, rowAt (batch m c) (2048 * t.val + r) a := by
  rw [Finset.sum_range]
  exact Finset.sum_congr rfl fun r _ => blk_row m c t r a

/-- A block's products of two features, likewise. -/
theorem blk_gram (c : Dev nD) (t : Fin cfg0.N) (p q : Fin 256) :
    ∑ r : Fin 2048, blk m c t (ix2 r p) * blk m c t (ix2 r q)
      = ∑ r ∈ Finset.range 2048, rowAt (batch m c) (2048 * t.val + r) p * rowAt (batch m c) (2048 * t.val + r) q := by
  rw [Finset.sum_range]
  exact Finset.sum_congr rfl fun r _ => by rw [blk_row, blk_row]

/-- After point n the row of column sums holds the sums over the first 2048 (n + 1) rows. -/
theorem sums_apply (c : Dev nD) : ∀ (n : ℕ) (h : n < cfg0.N) (a : Fin 256),
    sums m c n h (ix2 (0 : Fin 1) a) = ∑ k ∈ Finset.range (2048 * (n + 1)), rowAt (batch m c) k a
  | 0, h, a => by
    rw [sums_zero, addColSum_apply, zeroRow_apply, zero_add, blk_colSum]
    refine Finset.sum_congr rfl fun r _ => ?_
    show rowAt (batch m c) (2048 * 0 + r) a = _
    rw [Nat.mul_zero, Nat.zero_add]
  | n + 1, h, a => by
    rw [sums_succ, addColSum_apply, sums_apply c n (Nat.lt_of_succ_lt h) a, blk_colSum,
      show 2048 * (n + 1 + 1) = 2048 * (n + 1) + 2048 from by ring, Finset.sum_range_add]

/-- After point n the matrix of products holds the sums over the first 2048 (n + 1) rows. -/
theorem grams_apply (c : Dev nD) : ∀ (n : ℕ) (h : n < cfg0.N) (p q : Fin 256),
    grams m c n h (ix2 p q) = ∑ k ∈ Finset.range (2048 * (n + 1)), rowAt (batch m c) k p * rowAt (batch m c) k q
  | 0, h, p, q => by
    rw [grams_zero, addGram_apply, zeroMat_apply, zero_add, blk_gram]
    refine Finset.sum_congr rfl fun r _ => ?_
    show rowAt (batch m c) (2048 * 0 + r) p * rowAt (batch m c) (2048 * 0 + r) q = _
    rw [Nat.mul_zero, Nat.zero_add]
  | n + 1, h, p, q => by
    rw [grams_succ, addGram_apply, grams_apply c n (Nat.lt_of_succ_lt h) p q, blk_gram,
      show 2048 * (n + 1 + 1) = 2048 * (n + 1) + 2048 from by ring, Finset.sum_range_add]

/-- After the fourth point: the column sums of the whole batch. -/
theorem sums_last (c : Dev nD) (a : Fin 256) : sums m c 3 lastLt (ix2 (0 : Fin 1) a) = colSum (batch m c) a := by
  rw [sums_apply]
  show ∑ k ∈ Finset.range 8192, rowAt (batch m c) k a = _
  rw [Finset.sum_range]
  exact Finset.sum_congr rfl fun b _ => rowAt_lt _ b a

/-- After the fourth point: the Gram matrix of the whole batch. -/
theorem grams_last (c : Dev nD) (p q : Fin 256) : grams m c 3 lastLt (ix2 p q) = gram (batch m c) p q := by
  rw [grams_apply]
  show ∑ k ∈ Finset.range 8192, rowAt (batch m c) k p * rowAt (batch m c) k q = _
  rw [Finset.sum_range]
  exact Finset.sum_congr rfl fun b _ => by rw [rowAt_lt, rowAt_lt]

/-- So the block the last point stores is the one-pass loss of the batch, -/
theorem lossBlock_eq (c : Dev nD) : lossBlock m c = fun _ => frob (onePass (batch m c)) := by
  funext y
  show k0_pay5 (sums m c 3 lastLt) (grams m c 3 lastLt) y = _
  rw [loss_apply]
  have hs : (fun a : Fin 256 => sums m c 3 lastLt (ix2 (0 : Fin 1) a)) = colSum (batch m c) := funext fun a => sums_last m c a
  have hg : (fun p q : Fin 256 => grams m c 3 lastLt (ix2 p q)) = gram (batch m c) :=
    funext fun p => funext fun q => grams_last m c p q
  rw [hs, hg]
  rfl

/-- and so is the scalar it is reshaped to. -/
theorem scalar_eq (c : Dev nD) :
    shapeCast S_ (lossBlock m c) shapeCasts_S1x1_S_ = fun _ => frob (onePass (batch m c)) := by
  rw [lossBlock_eq]
  rfl

/-- The idealized kernel's run: the result is the one-pass loss of the batch; the arguments end as they began. -/
theorem run (ρ : Dev nD → PrngReg) :
    θ_run defs (onTc (τ := τ) (main (F := Ideal))) ⟨m, fun _ => 0, ρ⟩ fun r => ∀ c : Dev nD,
      r.2.mem ((c : Thread nD τ).loc main_v1) = (fun _ => frob (onePass (batch m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (scalar_eq m c), (h c).2⟩) (Cert.Hand.KernelRun.run m ρ)

end Cert.Hand.Totals

end
-- ==== Proof.RefValue.lean ====
/-
  The reference program's value is the two-pass loss.

  The reference centres the batch first: it sums each column, divides by the number of rows to get the
  column's mean, takes the mean off every entry, contracts the centred batch with itself over the rows,
  divides by the number of rows, takes the identity matrix off, squares, sums all entries and takes the
  square root. Each step is read at an index; the column mean is `mean`, the centred contraction divided
  by the number of rows less the identity is `twoPass`, and the root of the sum of squares is `frob`.
-/
import proofs.«155846_j55817394979131_1_alg».proof.Proof.Gen.ReferenceIdeal.Read
import proofs.«155846_j55817394979131_1_alg».proof.Proof.Spec

noncomputable section

open scoped BigOperators

namespace Cert.Hand.RefValue

open Cert.Hand.Cov Cert.ReferenceIdeal Cert.ReferenceIdeal.Read Idealize.ShloMosaic Idealize.ShloMosaic.ValueIdx

/-! ## The identity matrix -/

/-- Two coordinates below 256 are equal as 32-bit words exactly when they are equal. -/
theorem word_eq_iff (p q : Fin 256) : BitVec.ofNat 32 p.val = BitVec.ofNat 32 q.val ↔ p = q := by
  constructor
  · intro e
    have h := congrArg BitVec.toNat e
    rw [BitVec.toNat_ofNat, BitVec.toNat_ofNat] at h
    have hp := p.isLt
    have hq := q.isLt
    exact Fin.ext (by omega)
  · rintro rfl; rfl

/-- The comparison word of two coordinates: one on the diagonal, zero off it. -/
theorem cmp_word (p q : Fin 256) :
    IntOp.cmpi .eq (IntOp.addi (BitVec.ofNat 32 p.val) 0#32) (BitVec.ofNat 32 q.val) = if p = q then 1#1 else 0#1 := by
  unfold IntOp.cmpi IntOp.addi
  rw [BitVec.add_zero]
  by_cases h : p = q
  · subst h
    rw [if_pos rfl, beq_self_eq_true]; rfl
  · rw [if_neg h, beq_eq_false_iff_ne.mpr (fun e => h ((word_eq_iff p q).mp e))]; rfl

/-- The reference's identity entry is the identity matrix. -/
theorem eye_entry (p q : Fin 256) :
    FloatOps.uitofp (F := Ideal) .f32 (IntOp.cmpi .eq (IntOp.addi (BitVec.ofNat 32 p.val) 0#32) (BitVec.ofNat 32 q.val))
      = eye p q := by
  rw [cmp_word]
  unfold eye
  by_cases h : p = q
  · rw [if_pos h, if_pos h]
    show (((1#1 : BitVec 1).toNat : ℝ) : EReal) = 1
    norm_num
  · rw [if_neg h, if_neg h]
    show (((0#1 : BitVec 1).toNat : ℝ) : EReal) = 0
    norm_num

/-! ## The mean and the centred batch -/

/-- The reference's column mean is the mean of the column. -/
theorem mean_at (x : Batch) (i : S256.Idx) : val_main_v2 (F := Ideal) x i = mean x (i 0) := by
  have e0 : ∀ k : Fin 8192, idx_main_v0 i k = ix2 k (i 0) := fun k =>
    funext fun a => Fin.ext (by match a with | ⟨0, _⟩ => rfl | ⟨1, _⟩ => rfl)
  rw [val_main_v2_apply, val_main_v0_apply, val_main_v1_apply, val_main_cst_0_apply, val_main_cst_apply]
  simp only [Ideal.hostDivf_def, Ideal.ofBits_def, Ideal.ofBits_zero_f32, zero_add, e0]
  rfl

/-- The centred entry: the entry less its column's mean. -/
theorem centred_at (x : Batch) (b : Fin 8192) (p : Fin 256) :
    val_main_v5 (F := Ideal) x (ix2 b p) = x (ix2 b p) - mean x p := by
  rw [val_main_v5_apply, val_main_v4_apply, val_main_v3_apply, mean_at]
  rfl

/-- The contraction of the centred batch with itself over the rows. -/
theorem dot_at (x : Batch) (p q : Fin 256) :
    val_main_v6 (F := Ideal) x (ix2 p q) = ∑ b : Fin 8192, (x (ix2 b p) - mean x p) * (x (ix2 b q) - mean x q) := by
  have el : ∀ k : Fin 8192, lidx_main_v6 (ix2 p q) k = ix2 k p := fun k =>
    funext fun a => Fin.ext (by match a with | ⟨0, _⟩ => rfl | ⟨1, _⟩ => rfl)
  have er : ∀ k : Fin 8192, ridx_main_v6 (ix2 p q) k = ix2 k q := fun k =>
    funext fun a => Fin.ext (by match a with | ⟨0, _⟩ => rfl | ⟨1, _⟩ => rfl)
  rw [val_main_v6_apply]
  simp only [el, er, centred_at]

/-- The reference's entry before squaring is the two-pass entry. -/
theorem entry_at (x : Batch) (p q : Fin 256) : val_main_v15 (F := Ideal) x (ix2 p q) = twoPass x p q := by
  rw [val_main_v15_apply, val_main_v8_apply, val_main_v7_apply, val_main_cst_1_apply, val_main_v14_apply,
    val_main_v13_apply, val_main_v12_apply, val_main_v9_apply, val_main_v10_apply, val_main_v11_apply, val_main_c_apply,
    dot_at]
  simp only [Ideal.subf_def, Ideal.hostDivf_def, Ideal.ofBits_def]
  rw [show ((ix2 p q : S256x256.Idx) 0) = p from rfl, show ((ix2 p q : S256x256.Idx) 1) = q from rfl, eye_entry]
  rfl

/-! ## The value -/

/-- The reference computes the Frobenius norm of the two-pass entries. -/
theorem ref_value (x : (⟨Cert.ReferenceIdeal.S8192x256, .f32⟩ : BufTy).Contents (Elt Ideal)) :
    Cert.ReferenceIdeal.Read.val_main_v18 (F := Ideal) x = fun _ => frob (twoPass x) := by
  funext i
  rw [val_main_v18_apply, val_main_v17_apply, val_main_cst_2_apply]
  simp only [Ideal.hostUnary_sqrt_def, Ideal.ofBits_def, Ideal.ofBits_zero_f32, zero_add]
  unfold frob
  refine congrArg Ideal.sqrt (Finset.sum_congr rfl fun j _ => ?_)
  obtain ⟨p, q, rfl⟩ : ∃ (p q : Fin 256), j = ix2 p q := ⟨j 0, j 1, eq_ix2 j⟩
  rw [val_main_v16_apply, Ideal.mulf_def, entry_at]

end Cert.Hand.RefValue

end
-- ==== Proof.CovLaw.lean ====
/-
  The covariance of a batch, computed in one pass and in two, is the same matrix.

  With real entries r(b,a), N = 8192 rows and column sums s_a = Σ_b r(b,a), expanding the product of
  the centred entries gives
      Σ_b (r(b,p) − s_p/N) · (r(b,q) − s_q/N) = Σ_b r(b,p) · r(b,q) − (s_q/N) · s_p − (s_p/N) · s_q + N · (s_p/N) · (s_q/N),
  because the sum of a constant over the rows is N times it. Divided by N this is
      (Σ_b r(b,p) · r(b,q)) / N − s_q · s_p / N²,
  the one-pass entry; the two divisors are the reals 8192 and 8192² = 67108864. Taking the identity off
  both sides and then the Frobenius norm keeps them equal.
-/
import proofs.«155846_j55817394979131_1_alg».proof.Proof.Spec
import Mathlib.Algebra.BigOperators.Ring.Finset
import Mathlib.Algebra.BigOperators.Group.Finset.Basic
import Mathlib.Data.Fintype.Card
import Mathlib.Data.EReal.Basic
import Mathlib.Tactic.FieldSimp
import Mathlib.Tactic.Ring
import Mathlib.Tactic.NormNum

noncomputable section

open scoped BigOperators

namespace Cert.Hand.Cov

open Idealize.ShloMosaic Idealize.ShloMosaic.ValueIdx
open Cert.Hand.LibStats

/-! ## The two divisors -/

/-- The word of exponent field 140 and zero fraction denotes 2^13 = 8192. -/
theorem nB_eq : nB = ((8192 : ℝ) : EReal) := by
  unfold nB
  simp [Ideal.ofBits, Ideal.ieee, -EReal.coe_mul]; norm_num

/-- The word of exponent field 153 and zero fraction denotes 2^26 = 67108864. -/
theorem nB2_eq : nB2 = ((67108864 : ℝ) : EReal) := by
  unfold nB2
  simp [Ideal.ofBits, Ideal.ieee, -EReal.coe_mul]; norm_num

/-! ## The identity over the reals -/

section Real

variable {ι : Type*} [Fintype ι]

/-- The sum of the products of the deviations from any two constants m and n: the cross terms are
    n · Σf and m · Σg, and the constant term m · n is counted N times. -/
theorem real_sum_dev_mul (N : ℝ) (hN : (Fintype.card ι : ℝ) = N) (f g : ι → ℝ) (m n : ℝ) :
    ∑ i, (f i - m) * (g i - n)
      = (∑ i, f i * g i) - n * (∑ i, f i) - m * (∑ i, g i) + N * (m * n) := by
  have h2 : ∀ i, (f i - m) * (g i - n) = f i * g i - n * f i - m * g i + m * n := fun i => by ring
  simp only [h2]
  rw [Finset.sum_add_distrib, Finset.sum_sub_distrib, Finset.sum_sub_distrib, ← Finset.mul_sum,
    ← Finset.mul_sum, Finset.sum_const, Finset.card_univ, nsmul_eq_mul, hN]

/-- Two passes against one, over the reals: the mean of the products of the centred entries is the mean
    of the products less the product of the sums over N². -/
theorem real_cov (N : ℝ) (hN : (Fintype.card ι : ℝ) = N) (hN0 : N ≠ 0) (f g : ι → ℝ) :
    (∑ i, (f i - (∑ i, f i) / N) * (g i - (∑ i, g i) / N)) / N
      = (∑ i, f i * g i) / N - ((∑ i, g i) * (∑ i, f i)) / (N * N) := by
  rw [real_sum_dev_mul N hN f g]
  field_simp
  ring

end Real

/-! ## The entries -/

/-- For real entries the two-pass entry is the one-pass entry. -/
theorem twoPass_eq_onePass (x : Batch) (hx : ∀ i, Cert.Hand.LibStats.IsReal (x i)) (p q : Fin 256) :
    twoPass x p q = onePass x p q := by
  choose r hr using hx
  have h8 : (8192 : ℝ) ≠ 0 := by norm_num
  have h67 : (67108864 : ℝ) ≠ 0 := by norm_num
  have hcard : (Fintype.card (Fin 8192) : ℝ) = 8192 := by rw [Fintype.card_fin]; norm_num
  -- the sums of the two columns, and their means, as reals
  have hs : ∀ a : Fin 256, colSum x a = ((∑ b : Fin 8192, r (ix2 b a) : ℝ) : EReal) := by
    intro a
    unfold colSum
    simp only [hr]
    rw [← coe_sum]
  have hm : ∀ a : Fin 256, mean x a = (((∑ b : Fin 8192, r (ix2 b a)) / 8192 : ℝ) : EReal) := by
    intro a
    unfold mean
    rw [hs a, nB_eq, div_coe_coe _ _ h8]
  -- the Gram entry as a real
  have hG : gram x p q = ((∑ b : Fin 8192, r (ix2 b p) * r (ix2 b q) : ℝ) : EReal) := by
    unfold gram
    simp only [hr, ← EReal.coe_mul]
    rw [← coe_sum]
  -- the centred sum as a real
  have hC : (∑ b : Fin 8192, (x (ix2 b p) - mean x p) * (x (ix2 b q) - mean x q))
      = ((∑ b : Fin 8192, (r (ix2 b p) - (∑ b : Fin 8192, r (ix2 b p)) / 8192)
            * (r (ix2 b q) - (∑ b : Fin 8192, r (ix2 b q)) / 8192) : ℝ) : EReal) := by
    rw [hm p, hm q]
    simp only [hr, ← EReal.coe_sub, ← EReal.coe_mul]
    rw [← coe_sum]
  unfold twoPass onePass entry
  rw [hC, hG, hs p, hs q, ← EReal.coe_mul, nB_eq, nB2_eq, div_coe_coe _ _ h8, div_coe_coe _ _ h8,
    div_coe_coe _ _ h67, ← EReal.coe_sub,
    real_cov (8192 : ℝ) hcard h8 (fun b => r (ix2 b p)) (fun b => r (ix2 b q))]
  norm_num

/-! ## The norm -/

/-- For real entries the Frobenius norms of the two forms agree. -/
theorem frob_twoPass (x : Batch) (hx : ∀ i, Cert.Hand.LibStats.IsReal (x i)) :
    frob (twoPass x) = frob (onePass x) := by
  have h : twoPass x = onePass x := funext fun p => funext fun q => twoPass_eq_onePass x hx p q
  rw [h]

end Cert.Hand.Cov

end
-- ==== Proof.Finite.lean ====
/-
  From the precondition to "every entry of the float input is a real number".

  The precondition says that the conjunction, over all 8192 × 256 entries x of the float input, of the
  comparison |x| < +∞ is true. A conjunction that is true is true at every entry, so |x| < +∞ holds of each
  entry, where |x| = max x (−x) on the extended reals and +∞ is the value of the float word 0x7F800000.
  Of the three kinds of extended real, −∞ has |−∞| = +∞ and +∞ has |+∞| = +∞, neither of which is
  strictly below +∞; what is left is a real number.
-/
import proofs.«155846_j55817394979131_1_alg».proof.Defs
import proofs.«155846_j55817394979131_1_alg».proof.Proof.LibStats
import Idealize.ShloMosaic.Lib.ReduceAll
import Idealize.ShloMosaic.Lib.ValueIdx

noncomputable section

namespace Cert.Hand.Finite

open Idealize.ShloMosaic Idealize.SL.Sem
open Cert.Hand.LibStats

/-- The shape of a scalar has exactly one index: the function from no axes. -/
instance subsingleton_scalar_idx : Subsingleton Cert.Pre_finite_inputs.S_.Idx :=
  ⟨fun a b => funext fun d => d.elim0⟩

/-- The float word 0x7F800000 (sign 0, exponent all ones, fraction 0) is +∞. -/
theorem posInf_eq_top : Ideal.ofBits .f32 0x7F800000#32 = (⊤ : EReal) := by
  simp [Ideal.ofBits, Ideal.ieee]

/-- An extended real whose absolute value max x (−x) is strictly below +∞ is a real number. -/
theorem isReal_of_abs_lt_top (x : EReal) (h : max x (-x) < ⊤) : IsReal x := by
  induction x using EReal.rec with
  | bot =>
    exfalso
    rw [EReal.neg_bot, max_eq_right bot_le] at h
    exact lt_irrefl _ h
  | top =>
    exfalso
    rw [EReal.neg_top, max_eq_left bot_le] at h
    exact lt_irrefl _ h
  | coe r => exact isReal_coe r

/-- The comparison "ordered and less than" on extended reals, when it gives the word 1, is the strict order. -/
theorem lt_of_cmp_olt {x y : EReal} (h : Ideal.cmp .olt x y = 1#1) : x < y := by
  by_contra hn
  simp [Ideal.cmp, hn] at h

/-- Under the precondition every entry of the float input is a real number. -/
theorem real_of_pre [hP : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD)
    (i : Cert.KernelIdeal.S8192x256.Idx) :
    Cert.Hand.LibStats.IsReal (m ((c.tc : Thread Cert.KernelIdeal.nD Cert.KernelIdeal.τ).loc Cert.KernelIdeal.main_arg0) i) := by
  have h := congrFun (hm c) ValueIdx.ix0
  dsimp only [Cert.Pre_finite_inputs.fn] at h
  have he := Host.reduce_andi_all _ _ _ _ _ h i
  rw [ValueIdx.cmpf_apply, Ideal.cmpf_def] at he
  have hlt := lt_of_cmp_olt he
  have hb : broadcastInDim Cert.Pre_finite_inputs.S8192x256 ![] hP.bcast_S_S8192x256
      (constant (F := Ideal) Cert.Pre_finite_inputs.S_ .f32 0x7F800000#32) i = (⊤ : EReal) := by
    show Ideal.ofBits .f32 0x7F800000#32 = ⊤
    exact posInf_eq_top
  rw [hb] at hlt
  exact isReal_of_abs_lt_top _ hlt

end Cert.Hand.Finite

end
-- ==== Proof.lean ====
/-
  The certificate of the correlation loss.

  Both programs take a batch x of 8192 rows and 256 features and return the Frobenius norm of
  (covariance of the features − identity). The kernel makes one pass over the rows: across four grid points of
  2048 rows each it accumulates the column sums s and the Gram matrix G = xᵀx, and at the last point forms
  G/N − s sᵀ/N², N = 8192. The reference makes two: it takes the column means off the batch first and then
  contracts the centred batch with itself, (x − s/N)ᵀ(x − s/N)/N. Over real entries the two matrices are equal
  (expand the product; the sum of a constant over the rows is N times it), so the two losses are equal. The
  precondition, every entry finite, is what makes the entries real; with an infinite entry the expansion fails.

  The three frame claims are the generated runs: the word-level kernel's and the idealized kernel's frames, and
  the reference's run with its result dropped. The idealization rewrote nothing, so there is nothing to
  preserve. The value claim puts the kernel's run (the totals after the last point are the batch's column sums
  and Gram matrix; the stored loss is the one-pass loss) beside the reference's run (the two-pass loss) and
  joins them by the law above.
-/
import proofs.«155846_j55817394979131_1_alg».proof.Defs
import proofs.«155846_j55817394979131_1_alg».proof.Proof.Gen.Kernel
import proofs.«155846_j55817394979131_1_alg».proof.Proof.Gen.Kernel.Skeleton
import proofs.«155846_j55817394979131_1_alg».proof.Proof.Gen.Kernel.Launch
import proofs.«155846_j55817394979131_1_alg».proof.Proof.Gen.Kernel.Points
import proofs.«155846_j55817394979131_1_alg».proof.Proof.Gen.Kernel.Frame
import proofs.«155846_j55817394979131_1_alg».proof.Proof.Gen.KernelIdeal
import proofs.«155846_j55817394979131_1_alg».proof.Proof.Gen.KernelIdeal.Skeleton
import proofs.«155846_j55817394979131_1_alg».proof.Proof.Gen.KernelIdeal.Launch
import proofs.«155846_j55817394979131_1_alg».proof.Proof.Gen.KernelIdeal.Points
import proofs.«155846_j55817394979131_1_alg».proof.Proof.Gen.KernelIdeal.Frame
import proofs.«155846_j55817394979131_1_alg».proof.Proof.Gen.ReferenceIdeal
import proofs.«155846_j55817394979131_1_alg».proof.Proof.Gen.ReferenceIdeal.Run
import proofs.«155846_j55817394979131_1_alg».proof.Proof.Gen.ReferenceIdeal.Read
import proofs.«155846_j55817394979131_1_alg».proof.Proof.Gen.Pre_finite_inputs
import proofs.«155846_j55817394979131_1_alg».proof.Proof.Totals
import proofs.«155846_j55817394979131_1_alg».proof.Proof.RefValue
import proofs.«155846_j55817394979131_1_alg».proof.Proof.CovLaw
import proofs.«155846_j55817394979131_1_alg».proof.Proof.Finite
import Idealize.ShloMosaic.Adequacy
import Idealize.ShloMosaic.Init

noncomputable section

namespace Cert.Proof

open Idealize.ShloMosaic Idealize.SL.Sem

/-- The word-level kernel runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From batches that agree and are finite, the kernel ends at the one-pass loss and the reference at the
    two-pass loss, which for real entries is the same extended real. -/
theorem algebraic : Cert.algebraic_KernelIdeal_ReferenceIdeal := by
  intro m ρ m' ρ' hpre hagree
  refine ⟨_, Cert.Hand.Totals.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Hand.RefValue.ref_value, (hagree c).1]
  funext _
  exact Cert.Hand.Cov.frob_twoPass _ fun i => Cert.Hand.Finite.real_of_pre m hpre c i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
